-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S32x32 : Shape := ⟨2, ![32, 32]⟩
abbrev S32 : Shape := ⟨1, ![32]⟩
abbrev S6400000 : Shape := ⟨1, ![6400000]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S32x32 : S_.BroadcastsInDim S32x32 (![] : Fin 0 → Fin S32x32.rank)
  reducesTo_S32x32_S_d0_1 : S32x32.ReducesTo [0, 1] S_
  bcast_S_S32 : S_.BroadcastsInDim S32 (![] : Fin 0 → Fin S32.rank)
  reducesTo_S32_S_d0 : S32.ReducesTo [0] S_

variable [Facts]

def fn {F : FTy → Type} [FloatOps F] (main_arg0 : FVec F S100000x32 .f32) (main_arg1 : FVec F S32x32 .f32) (main_arg2 : FVec F S32 .f32) (main_arg3 : IVec S6400000 32) (main_arg4 : IVec S6400000 32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S32x32 .f32 := Host.absf main_arg1
  let main_cst_0 : FVec F S_ .f32 := constant S_ .f32 0x7F800000#32
  let main_v5 : FVec F S32x32 .f32 := broadcastInDim S32x32 ![] bcast_S_S32x32 main_cst_0
  let main_v6 : IVec S32x32 1 := cmpf .olt main_v4 main_v5
  let main_c_1 : IVec S_ 1 := constantI S_ 1 1#1
  let main_v7 : IVec S_ 1 := (fun x v => Host.reduce IntOp.andi x v reducesTo_S32x32_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  main_v13
-- ==== Kernel.lean ====
abbrev S100000x32 : Shape := ⟨2, ![100000, 32]⟩
abbrev S32x32 : Shape := ⟨2, ![32, 32]⟩
abbrev S32 : Shape := ⟨1, ![32]⟩
abbrev S6400000 : Shape := ⟨1, ![6400000]⟩
abbrev S_ : Shape := ⟨0, ![]⟩
abbrev S100000 : Shape := ⟨1, ![100000]⟩
abbrev S6400000x1 : Shape := ⟨2, ![6400000, 1]⟩
abbrev S100000x1 : Shape := ⟨2, ![100000, 1]⟩
abbrev S10000x32 : Shape := ⟨2, ![10000, 32]⟩
abbrev S6400000x32 : Shape := ⟨2, ![6400000, 32]⟩
abbrev S1x32 : Shape := ⟨2, ![1, 32]⟩

abbrev nBuf : Space → Nat
  | .hbm => 42
  | .vmem => 14
  | .smem => 0
  | _ => 0

abbrev bufTy : (tb : Table) → Fin (tcTables nBuf tb) → BufTy
  | .hbm, ⟨0, _⟩ => ⟨S100000x32, .f32⟩
  | .hbm, ⟨1, _⟩ => ⟨S32x32, .f32⟩
  | .hbm, ⟨2, _⟩ => ⟨S32, .f32⟩
  | .hbm, ⟨3, _⟩ => ⟨S6400000, .i32⟩
  | .hbm, ⟨4, _⟩ => ⟨S6400000, .i32⟩
  | .hbm, ⟨5, _⟩ => ⟨S_, .f32⟩
  | .hbm, ⟨6, _⟩ => ⟨S6400000, .f32⟩
  | .hbm, ⟨7, _⟩ => ⟨S_, .f32⟩
  | .hbm, ⟨8, _⟩ => ⟨S100000, .f32⟩
  | .hbm, ⟨9, _⟩ => ⟨S6400000x1, .i32⟩
  | .hbm, ⟨10, _⟩ => ⟨S100000, .f32⟩
  | .hbm, ⟨11, _⟩ => ⟨S_, .f32⟩
  | .hbm, ⟨12, _⟩ => ⟨S100000, .f32⟩
  | .hbm, ⟨13, _⟩ => ⟨S6400000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S100000x1, .f32⟩
  | .hbm, ⟨24, _⟩ => ⟨S100000x32, .f32⟩
  | .hbm, ⟨25, _⟩ => ⟨S100000x32, .f32⟩
  | .hbm, ⟨26, _⟩ => ⟨S_, .i32⟩
  | .hbm, ⟨27, _⟩ => ⟨S6400000, .i32⟩
  | .hbm, ⟨28, _⟩ => ⟨S6400000, .i1⟩
  | .hbm, ⟨29, _⟩ => ⟨S_, .i32⟩
  | .hbm, ⟨30, _⟩ => ⟨S6400000, .i32⟩
  | .hbm, ⟨31, _⟩ => ⟨S6400000, .i32⟩
  | .hbm, ⟨32, _⟩ => ⟨S6400000, .i32⟩
  | .hbm, ⟨33, _⟩ => ⟨S6400000x1, .i32⟩
  | .hbm, ⟨34, _⟩ => ⟨S6400000x32, .f32⟩
  | .hbm, ⟨35, _⟩ => ⟨S_, .f32⟩
  | .hbm, ⟨36, _⟩ => ⟨S100000x32, .f32⟩
  | .hbm, ⟨37, _⟩ => ⟨S6400000x1, .i32⟩
  | .hbm, ⟨38, _⟩ => ⟨S100000x32, .f32⟩
  | .hbm, ⟨39, _⟩ => ⟨S100000x1, .f32⟩
  | .hbm, ⟨40, _⟩ => ⟨S100000x32, .f32⟩
  | .hbm, ⟨41, _⟩ => ⟨S100000x32, .f32⟩
  | .local _ .vmem, ⟨0, _⟩ => ⟨S10000x32, .f32⟩
  | .local _ .vmem, ⟨1, _⟩ => ⟨S10000x32, .f32⟩
  | .local _ .vmem, ⟨2, _⟩ => ⟨S10000x32, .f32⟩
  | .local _ .vmem, ⟨3, _⟩ => ⟨S10000x32, .f32⟩
  | .local _ .vmem, ⟨4, _⟩ => ⟨S10000x32, .f32⟩
  | .local _ .vmem, ⟨5, _⟩ => ⟨S10000x32, .f32⟩
  | .local _ .vmem, ⟨6, _⟩ => ⟨S10000x32, .f32⟩
  | .local _ .vmem, ⟨7, _⟩ => ⟨S10000x32, .f32⟩
  | .local _ .vmem, ⟨8, _⟩ => ⟨S10000x32, .f32⟩
  | .local _ .vmem, ⟨9, _⟩ => ⟨S10000x32, .f32⟩
  | .local _ .vmem, ⟨10, _⟩ => ⟨S32x32, .f32⟩
  | .local _ .vmem, ⟨11, _⟩ => ⟨S32, .f32⟩
  | .local _ .vmem, ⟨12, _⟩ => ⟨S10000x32, .f32⟩
  | .local _ .vmem, ⟨13, _⟩ => ⟨S10000x32, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S_S6400000 : S_.BroadcastsInDim S6400000 (![] : Fin 0 → Fin S6400000.rank)
  bcast_S_S100000 : S_.BroadcastsInDim S100000 (![] : Fin 0 → Fin S100000.rank)
  bcast_S6400000_S6400000x1_0 : S6400000.BroadcastsInDim S6400000x1 (![0] : Fin 1 → Fin S6400000x1.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  bcast_S_S100000x32 : S_.BroadcastsInDim S100000x32 (![] : Fin 0 → Fin S100000x32.rank)
  bitsLt_bf16_f32 : FTy.bits .bf16 < FTy.bits .f32
  inb_S32x32_S32x32_0_0 : ∀ a, (![0, 0] : Fin 2 → Nat) a + S32x32.size a ≤ S32x32.size a
  h_S32x32 : 0 < S32x32.numel
  inb_S32_S32_0 : ∀ a, (![0] : Fin 1 → Nat) a + S32.size a ≤ S32.size a
  h_S32 : 0 < S32.numel
  shapeCasts_S32_S1x32 : S32.ShapeCasts S1x32
  broadcasts_S1x32_S10000x32 : S1x32.Broadcasts S10000x32
  scatter_S100000_S6400000x1_S6400000_n_0_0_1_wf : ScatterDims.WF S100000 S6400000x1 S6400000 [] [0] [0] 1
  gather_S100000x32_S6400000x1_S6400000x32_1_0_n_n_0_1_132_wf : GatherDims.WF S100000x32 S6400000x1 S6400000x32 [1] [0] [] [0] [] 1 ![1, 32]
  scatter_S100000x32_S6400000x1_S6400000x32_1_0_0_1_wf : ScatterDims.WF S100000x32 S6400000x1 S6400000x32 [1] [0] [0] 1
  dot_S10000x32_S32x32_S10000x32_1_0_0_1_n_n_wf : DotDims.WF S10000x32 S32x32 S10000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x32.size a ≤ S100000x32.size a
  hwx0_0 : ∀ i : grid0.Coords, EltTy.bits .f32 = 32 ∨ (Rect.block (s := S100000x32) S10000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x32.size a ≤ S100000x32.size a
  hwx0_1 : ∀ i : grid0.Coords, EltTy.bits .f32 = 32 ∨ (Rect.block (s := S100000x32) S10000x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x32.size a ≤ S100000x32.size a
  hwx0_2 : ∀ i : grid0.Coords, EltTy.bits .f32 = 32 ∨ (Rect.block (s := S100000x32) S10000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S100000x32.size a
  hwx1_0 : ∀ i : grid1.Coords, EltTy.bits .f32 = 32 ∨ (Rect.block (s := S100000x32) S10000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x32.size a ≤ S100000x32.size a
  hwx1_1 : ∀ i : grid1.Coords, EltTy.bits .f32 = 32 ∨ (Rect.block (s := S100000x32) S10000x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x32.size a ≤ S32x32.size a
  hwx1_2 : ∀ i : grid1.Coords, EltTy.bits .f32 = 32 ∨ (Rect.block (s := S32x32) S32x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32.size a ≤ S32.size a
  hwx1_3 : ∀ i : grid1.Coords, EltTy.bits .f32 = 32 ∨ (Rect.block (s := S32) S32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x32.size a ≤ S100000x32.size a
  hwx1_4 : ∀ i : grid1.Coords, EltTy.bits .f32 = 32 ∨ (Rect.block (s := S100000x32) S10000x32.size (cc1_transform_4 i) (hinb1_4 i)).WholeWords (EltTy.packing .f32)

variable [Facts₀]

def scatter_S100000_S6400000x1_S6400000_n_0_0_1 : ScatterDims S100000 S6400000x1 S6400000 where
  updateWindowDims := []
  insertedWindowDims := [0]
  scatterDimsToOperandDims := [0]
  indexVectorDim := 1
  wf := scatter_S100000_S6400000x1_S6400000_n_0_0_1_wf
def gather_S100000x32_S6400000x1_S6400000x32_1_0_n_n_0_1_132 : GatherDims S100000x32 S6400000x1 S6400000x32 where
  offsetDims := [1]
  collapsedSliceDims := [0]
  operandBatchingDims := []
  startIndicesBatchingDims := []
  startIndexMap := [0]
  indexVectorDim := 1
  sliceSizes := ![1, 32]
  wf := gather_S100000x32_S6400000x1_S6400000x32_1_0_n_n_0_1_132_wf
def scatter_S100000x32_S6400000x1_S6400000x32_1_0_0_1 : ScatterDims S100000x32 S6400000x1 S6400000x32 where
  updateWindowDims := [1]
  insertedWindowDims := [0]
  scatterDimsToOperandDims := [0]
  indexVectorDim := 1
  wf := scatter_S100000x32_S6400000x1_S6400000x32_1_0_0_1_wf
def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf

abbrev win0_0 : Pipeline.Window sig grid0 :=
  Pipeline.Window.ofSpec (Memref.whole main_arg0) S10000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S10000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S10000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v25) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S10000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S32x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg2) S32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S10000x32.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x32 : Shape := ⟨2, ![100000, 32]⟩
abbrev S32x32 : Shape := ⟨2, ![32, 32]⟩
abbrev S32 : Shape := ⟨1, ![32]⟩
abbrev S6400000 : Shape := ⟨1, ![6400000]⟩
abbrev S_ : Shape := ⟨0, ![]⟩
abbrev S100000 : Shape := ⟨1, ![100000]⟩
abbrev S6400000x1 : Shape := ⟨2, ![6400000, 1]⟩
abbrev S100000x1 : Shape := ⟨2, ![100000, 1]⟩
abbrev S6400000x32 : Shape := ⟨2, ![6400000, 32]⟩
abbrev S1x32 : Shape := ⟨2, ![1, 32]⟩

abbrev nBuf : Space → Nat
  | .hbm => 46
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S32x32, .f32⟩
  | .hbm, ⟨2, _⟩ => ⟨S32, .f32⟩
  | .hbm, ⟨3, _⟩ => ⟨S6400000, .i32⟩
  | .hbm, ⟨4, _⟩ => ⟨S6400000, .i32⟩
  | .hbm, ⟨5, _⟩ => ⟨S_, .f32⟩
  | .hbm, ⟨6, _⟩ => ⟨S6400000, .f32⟩
  | .hbm, ⟨7, _⟩ => ⟨S_, .f32⟩
  | .hbm, ⟨8, _⟩ => ⟨S100000, .f32⟩
  | .hbm, ⟨9, _⟩ => ⟨S6400000x1, .i32⟩
  | .hbm, ⟨10, _⟩ => ⟨S100000, .f32⟩
  | .hbm, ⟨11, _⟩ => ⟨S_, .f32⟩
  | .hbm, ⟨12, _⟩ => ⟨S100000, .f32⟩
  | .hbm, ⟨13, _⟩ => ⟨S6400000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S100000x1, .f32⟩
  | .hbm, ⟨24, _⟩ => ⟨S100000x32, .f32⟩
  | .hbm, ⟨25, _⟩ => ⟨S100000x32, .f32⟩
  | .hbm, ⟨26, _⟩ => ⟨S_, .i32⟩
  | .hbm, ⟨27, _⟩ => ⟨S6400000, .i32⟩
  | .hbm, ⟨28, _⟩ => ⟨S6400000, .i1⟩
  | .hbm, ⟨29, _⟩ => ⟨S_, .i32⟩
  | .hbm, ⟨30, _⟩ => ⟨S6400000, .i32⟩
  | .hbm, ⟨31, _⟩ => ⟨S6400000, .i32⟩
  | .hbm, ⟨32, _⟩ => ⟨S6400000, .i32⟩
  | .hbm, ⟨33, _⟩ => ⟨S6400000x1, .i32⟩
  | .hbm, ⟨34, _⟩ => ⟨S6400000x32, .f32⟩
  | .hbm, ⟨35, _⟩ => ⟨S_, .f32⟩
  | .hbm, ⟨36, _⟩ => ⟨S100000x32, .f32⟩
  | .hbm, ⟨37, _⟩ => ⟨S6400000x1, .i32⟩
  | .hbm, ⟨38, _⟩ => ⟨S100000x32, .f32⟩
  | .hbm, ⟨39, _⟩ => ⟨S100000x1, .f32⟩
  | .hbm, ⟨40, _⟩ => ⟨S100000x32, .f32⟩
  | .hbm, ⟨41, _⟩ => ⟨S100000x32, .f32⟩
  | .hbm, ⟨42, _⟩ => ⟨S100000x32, .f32⟩
  | .hbm, ⟨43, _⟩ => ⟨S1x32, .f32⟩
  | .hbm, ⟨44, _⟩ => ⟨S100000x32, .f32⟩
  | .hbm, ⟨45, _⟩ => ⟨S100000x32, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]

class Facts₀ : Prop where
  bcast_S_S6400000 : S_.BroadcastsInDim S6400000 (![] : Fin 0 → Fin S6400000.rank)
  bcast_S_S100000 : S_.BroadcastsInDim S100000 (![] : Fin 0 → Fin S100000.rank)
  bcast_S6400000_S6400000x1_0 : S6400000.BroadcastsInDim S6400000x1 (![0] : Fin 1 → Fin S6400000x1.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S6400000x1_S6400000_n_0_0_1_wf : ScatterDims.WF S100000 S6400000x1 S6400000 [] [0] [0] 1
  gather_S100000x32_S6400000x1_S6400000x32_1_0_n_n_0_1_132_wf : GatherDims.WF S100000x32 S6400000x1 S6400000x32 [1] [0] [] [0] [] 1 ![1, 32]
  scatter_S100000x32_S6400000x1_S6400000x32_1_0_0_1_wf : ScatterDims.WF S100000x32 S6400000x1 S6400000x32 [1] [0] [0] 1
  dot_S100000x32_S32x32_S100000x32_1_0_0_1_n_n_wf : DotDims.WF S100000x32 S32x32 S100000x32 [1] [0] [0] [1] [] []

variable [Facts₀]

def scatter_S100000_S6400000x1_S6400000_n_0_0_1 : ScatterDims S100000 S6400000x1 S6400000 where
  updateWindowDims := []
  insertedWindowDims := [0]
  scatterDimsToOperandDims := [0]
  indexVectorDim := 1
  wf := scatter_S100000_S6400000x1_S6400000_n_0_0_1_wf
def gather_S100000x32_S6400000x1_S6400000x32_1_0_n_n_0_1_132 : GatherDims S100000x32 S6400000x1 S6400000x32 where
  offsetDims := [1]
  collapsedSliceDims := [0]
  operandBatchingDims := []
  startIndicesBatchingDims := []
  startIndexMap := [0]
  indexVectorDim := 1
  sliceSizes := ![1, 32]
  wf := gather_S100000x32_S6400000x1_S6400000x32_1_0_n_n_0_1_132_wf
def scatter_S100000x32_S6400000x1_S6400000x32_1_0_0_1 : ScatterDims S100000x32 S6400000x1 S6400000x32 where
  updateWindowDims := [1]
  insertedWindowDims := [0]
  scatterDimsToOperandDims := [0]
  indexVectorDim := 1
  wf := scatter_S100000x32_S6400000x1_S6400000x32_1_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf

class Facts : Prop extends Facts₀ where

variable [Facts]
-- ==== Proof.RowScale.lean ====
/-
  What the first kernel leaves in its output array.

  The kernel walks the 100000×32 arrays in ten row blocks of 10000 rows. At block `t` it loads the block of
  the node features and the block of the broadcast out-degree normalisation, multiplies them entry by
  entry, and stores the product as block `t` of the output. Each block of the output is therefore the same
  block of ONE whole-array function, the entrywise product of the two arrays; the ten blocks tile the rows
  (row `r` lies in block `r / 10000`), so the output array ends as that product.
-/
import proofs.«171272_j41291815584253_1_alg».proof.Proof.Gen.KernelIdeal.Frame
import Idealize.ShloMosaic.Lib.Pipeline.Value

set_option maxRecDepth 16384

noncomputable section

namespace Cert.KernelIdeal.RowScale

open Cert.KernelIdeal Cert.KernelIdeal.Gen Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))

theorem origin2 : (![0, 0] : Fin 2 → Nat) = fun _ => 0 := funext fun a => by fin_cases a <;> rfl

/-- The stored value is the entrywise product of the two loaded blocks. -/
theorem pay_eq (x n : Vec F S10000x32 .f32) : k0_pay1 x n = mulf x n := by
  unfold k0_pay1
  show mulf x (shapeCast S10000x32 n shapeCasts_S10000x32_S10000x32) = _
  rw [shapeCast_self]

/-- All three windows sit at row block `t`, column block 0. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What block `t` writes back is block `t` of the entrywise product of the features and the normalisation. -/
theorem flushed_eq (c : Dev nD) (t : Fin cfg0.N) :
    (dat0 V c).flushed 2 t = ((cfg0.win 2).blk t).view.read (Elt F) (mulf (F := F) (s := S100000x32) (φ := .f32) (V c main_arg0) (V c main_v14)) := by
  show (cfg0.win 2).cut (grid0.coords t) ((dat0 V c).after 2 t) = _
  rw [after0_2]
  unfold out0_2
  rw [View.canon_unit_zero origin2]
  simp only [View.ld_unit_zero (S := S10000x32) origin2]
  rw [pay_eq]
  obtain ⟨e0, e1, e2, e3, e4, e5⟩ := block_index t
  funext j
  show FloatOps.mulf (V c main_arg0 (((cfg0.win 0).blk t).view.emb j)) (V c main_v14 (((cfg0.win 1).blk t).view.emb j))
    = FloatOps.mulf (V c main_arg0 (((cfg0.win 2).blk t).view.emb j)) (V c main_v14 (((cfg0.win 2).blk t).view.emb j))
  have h0 : ((cfg0.win 0).blk t).view.emb j = ((cfg0.win 2).blk t).view.emb j := by
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 32 + 1 * (j 1).val = win0_2.index t (1 : Fin 2) * 32 + 1 * (j 1).val; omega
  have h1 : ((cfg0.win 1).blk t).view.emb j = ((cfg0.win 2).blk t).view.emb j := by
    funext a; apply Fin.ext
    match a with
    | ⟨0, _⟩ => show win0_1.index t (0 : Fin 2) * 10000 + 1 * (j 0).val = win0_2.index t (0 : Fin 2) * 10000 + 1 * (j 0).val; omega
    | ⟨1, _⟩ => show win0_1.index t (1 : Fin 2) * 32 + 1 * (j 1).val = win0_2.index t (1 : Fin 2) * 32 + 1 * (j 1).val; omega
  rw [h0, h1]

/-- An index of the output array is in block `t` exactly when each coordinate is in the block's range. -/
theorem mem_blk (t : Fin cfg0.N) (i : S100000x32.Idx) :
    i ∈ ((cfg0.win 2).blk t).view.set ↔ ∀ a : Fin 2, win0_2.index t a * S10000x32.size a ≤ (i a).val ∧ (i a).val < win0_2.index t a * S10000x32.size a + S10000x32.size a := by
  show i ∈ ((View.whole main_v15).slice (win0_2.rect t)).set ↔ _
  rw [View.set_slice_whole, Rect.mem_set_unit]
  exact Iff.rfl

/-- Row `r` of the output lies in block `r / 10000`. -/
theorem cover (i : S100000x32.Idx) : ∃ t : Fin cfg0.N, (cfg0.win 2).flush t = true ∧ i ∈ ((cfg0.win 2).blk t).view.set := by
  have hi0 : (i 0).val < 100000 := (i 0).isLt
  have hi1 : (i 1).val < 32 := (i 1).isLt
  let t : Fin cfg0.N := ⟨(i 0).val / 10000, by show _ < grid0.N; rw [N_0]; omega⟩
  obtain ⟨e0, e1, e2, e3, e4, e5⟩ := block_index t
  have ht : t.val = (i 0).val / 10000 := rfl
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 32 ≤ (i 1).val ∧ (i 1).val < win0_2.index t (1 : Fin 2) * 32 + 32; omega

/-- The output array after the ten blocks: the entrywise product of the features and the normalisation, as
    the region found them. -/
theorem final (c : Dev nD) :
    (dat0 V c).arrAt 2 cfg0.N = mulf (F := F) (s := S100000x32) (φ := .f32) (V c main_arg0) (V c main_v14) :=
  (dat0 V c).arrAt_eq_of_cover 2 _ (fun t _ => flushed_eq V c t) cover

end Cert.KernelIdeal.RowScale

end
-- ==== Proof.LinearPayload.lean ====
/-
  The second kernel's body at one entry of its block, over the extended reals.

  The body multiplies the aggregated block `a` by the normalisation block `n` entry by entry, narrows the
  product and the weight matrix `w` to bf16 (the identity on extended reals), multiplies the two on the
  matrix unit into a zero accumulator, and adds the bias row `b` broadcast down the rows. At row `p` and
  column `q` of the block that is

      (∑ k, (a p k · n p k) · w k q) + b q,

  a sum over the 32 columns of the product and rows of the weight matrix.
-/
import proofs.«171272_j41291815584253_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Linear

open Cert.KernelIdeal Cert.KernelIdeal.Gen Idealize.ShloMosaic Idealize.ShloMosaic.ValueIdx

/-! ## The block product's operand indices -/

theorem lhs_blk_0 (i : S10000x32.Idx) (q : dot_S10000x32_S32x32_S10000x32_1_0_0_1_n_n.contr.Idx) :
    (dot_S10000x32_S32x32_S10000x32_1_0_0_1_n_n.lhsIdx i q 0).val = (i 0).val := by
  unfold DotDims.lhsIdx
  rw [dif_neg (show ¬(0 : Fin S10000x32.rank) ∈ dot_S10000x32_S32x32_S10000x32_1_0_0_1_n_n.lhsBatch by decide), dif_pos (show (0 : Fin S10000x32.rank) ∈ dot_S10000x32_S32x32_S10000x32_1_0_0_1_n_n.lhsNonContracting by decide)]
  rfl
theorem lhs_blk_1 (i : S10000x32.Idx) (q : dot_S10000x32_S32x32_S10000x32_1_0_0_1_n_n.contr.Idx) :
    (dot_S10000x32_S32x32_S10000x32_1_0_0_1_n_n.lhsIdx i q 1).val = (q ⟨0, by decide⟩).val :=
  dot_S10000x32_S32x32_S10000x32_1_0_0_1_n_n.lhsIdx_val_of_single rfl i q
theorem rhs_blk_0 (i : S10000x32.Idx) (q : dot_S10000x32_S32x32_S10000x32_1_0_0_1_n_n.contr.Idx) :
    (dot_S10000x32_S32x32_S10000x32_1_0_0_1_n_n.rhsIdx i q 0).val = (q ⟨0, by decide⟩).val :=
  dot_S10000x32_S32x32_S10000x32_1_0_0_1_n_n.rhsIdx_val_of_single rfl i q
theorem rhs_blk_1 (i : S10000x32.Idx) (q : dot_S10000x32_S32x32_S10000x32_1_0_0_1_n_n.contr.Idx) :
    (dot_S10000x32_S32x32_S10000x32_1_0_0_1_n_n.rhsIdx i q 1).val = (i 1).val := by
  unfold DotDims.rhsIdx
  rw [dif_neg (show ¬(1 : Fin S32x32.rank) ∈ dot_S10000x32_S32x32_S10000x32_1_0_0_1_n_n.rhsBatch by decide), dif_pos (show (1 : Fin S32x32.rank) ∈ dot_S10000x32_S32x32_S10000x32_1_0_0_1_n_n.rhsNonContracting by decide)]
  rfl

/-- The matrix unit's product of a 10000×32 block with the 32×32 weights into a zero accumulator, at row `p`
    and column `q`: the sum over the 32 contracted coordinates. -/
theorem matmul_blk {φ₁ φ₂ : FTy} (a : FVec Ideal S10000x32 φ₁) (w : FVec Ideal S32x32 φ₂) (p : Fin 10000) (q : Fin 32) :
    matmul (F := Ideal) dot_S10000x32_S32x32_S10000x32_1_0_0_1_n_n none a w (constant (F := Ideal) S10000x32 .f32 0x00000000#32) (ix2 p q)
      = ∑ k : Fin 32, a (ix2 p k) * w (ix2 k q) := by
  show FloatOps.matmul dot_S10000x32_S32x32_S10000x32_1_0_0_1_n_n none a w (constant (F := Ideal) S10000x32 .f32 0x00000000#32) (ix2 p q) = _
  rw [Ideal.matmul_constant_zero_apply, ← Equiv.sum_comp (ValueIdx.contrEquiv1 dot_S10000x32_S32x32_S10000x32_1_0_0_1_n_n 32 rfl rfl).symm]
  refine Finset.sum_congr rfl fun k _ => ?_
  have hk := ValueIdx.contrEquiv1_symm_val dot_S10000x32_S32x32_S10000x32_1_0_0_1_n_n 32 rfl rfl k
  have el : dot_S10000x32_S32x32_S10000x32_1_0_0_1_n_n.lhsIdx (ix2 p q) ((ValueIdx.contrEquiv1 dot_S10000x32_S32x32_S10000x32_1_0_0_1_n_n 32 rfl rfl).symm k) = ix2 p k := funext fun ax => Fin.ext (by
    match ax with
    | ⟨0, _⟩ => exact lhs_blk_0 _ _
    | ⟨1, _⟩ => exact (lhs_blk_1 _ _).trans hk)
  have er : dot_S10000x32_S32x32_S10000x32_1_0_0_1_n_n.rhsIdx (ix2 p q) ((ValueIdx.contrEquiv1 dot_S10000x32_S32x32_S10000x32_1_0_0_1_n_n 32 rfl rfl).symm k) = ix2 k q := funext fun ax => Fin.ext (by
    match ax with
    | ⟨0, _⟩ => exact (rhs_blk_0 _ _).trans hk
    | ⟨1, _⟩ => exact rhs_blk_1 _ _)
  rw [el, er]

/-- The body's stored value at row `p`, column `q` of the block. -/
theorem pay_apply (a n : Vec Ideal S10000x32 .f32) (w : Vec Ideal S32x32 .f32) (b : Vec Ideal S32 .f32) (p : Fin 10000) (q : Fin 32) :
    k1_pay1 (F := Ideal) a n w b (ix2 p q) = (∑ k : Fin 32, (a (ix2 p k) * n (ix2 p k)) * w (ix2 k q)) + b (ix1 q) := by
  unfold k1_pay1
  show (matmul (F := Ideal) dot_S10000x32_S32x32_S10000x32_1_0_0_1_n_n none
        (truncf .bf16 (mulf (shapeCast S10000x32 a shapeCasts_S10000x32_S10000x32) (shapeCast S10000x32 n shapeCasts_S10000x32_S10000x32)) bitsLt_bf16_f32)
        (truncf .bf16 w bitsLt_bf16_f32) (constant (F := Ideal) S10000x32 .f32 0x00000000#32)) (ix2 p q)
      + (broadcastTo S10000x32 (shapeCast S1x32 b shapeCasts_S32_S1x32) broadcasts_S1x32_S10000x32) (ix2 p q) = _
  rw [matmul_blk, shapeCast_self, shapeCast_self, broadcastTo_1b_ab_apply, shapeCast_a_1a_apply]
  rfl

end Cert.KernelIdeal.Linear

end
-- ==== Proof.LinearSpec.lean ====
/-
  The last stage of the layer as one function of whole arrays, over the extended reals.

  Given the aggregated features `A` and the broadcast in-degree normalisation `N` (both 100000×32), the
  weights `W` (32×32) and the bias `b` (32), the result at row `r`, column `c` is

      (∑ k, (A r k · N r k) · W k c) + b c.

  Both programs end at this function of the same four arrays: the kernel block by block on the matrix unit,
  the reference by one product of the whole arrays.
-/
import Idealize.ShloMosaic.PureOps.Ideal
import Idealize.ShloMosaic.Lib.ValueIdx

noncomputable section

namespace Cert.GcnSpec

open Idealize.ShloMosaic Idealize.ShloMosaic.ValueIdx

/-- The entry of a 100000×32 array in the row of `i`, at column `k`. -/
abbrev rowAt (i : (⟨2, ![100000, 32]⟩ : Shape).Idx) (k : Fin 32) : (⟨2, ![100000, 32]⟩ : Shape).Idx := fun a => match a with
  | ⟨0, _⟩ => ⟨(i 0).val, (i 0).isLt⟩
  | ⟨1, _⟩ => ⟨k.val, k.isLt⟩
/-- The entry of the weights at row `k`, in the column of `i`. -/
abbrev colAt (i : (⟨2, ![100000, 32]⟩ : Shape).Idx) (k : Fin 32) : (⟨2, ![32, 32]⟩ : Shape).Idx := fun a => match a with
  | ⟨0, _⟩ => ⟨k.val, k.isLt⟩
  | ⟨1, _⟩ => ⟨(i 1).val, (i 1).isLt⟩
/-- The entry of the bias in the column of `i`. -/
abbrev biasAt (i : (⟨2, ![100000, 32]⟩ : Shape).Idx) : (⟨1, ![32]⟩ : Shape).Idx := fun a => match a with
  | ⟨0, _⟩ => ⟨(i 1).val, (i 1).isLt⟩

/-- `(A ∘ N) · W + b`, entry by entry. -/
def linear (A N : Vec Ideal ⟨2, ![100000, 32]⟩ .f32) (W : Vec Ideal ⟨2, ![32, 32]⟩ .f32) (b : Vec Ideal ⟨1, ![32]⟩ .f32) :
    Vec Ideal ⟨2, ![100000, 32]⟩ .f32 :=
  fun i => (∑ k : Fin 32, (A (rowAt i k) * N (rowAt i k)) * W (colAt i k)) + b (biasAt i)

theorem linear_apply (A N : Vec Ideal ⟨2, ![100000, 32]⟩ .f32) (W : Vec Ideal ⟨2, ![32, 32]⟩ .f32) (b : Vec Ideal ⟨1, ![32]⟩ .f32)
    (i : (⟨2, ![100000, 32]⟩ : Shape).Idx) :
    linear A N W b i = (∑ k : Fin 32, (A (rowAt i k) * N (rowAt i k)) * W (colAt i k)) + b (biasAt i) := rfl

end Cert.GcnSpec

end
-- ==== Proof.LinearRegion.lean ====
/-
  What the second kernel leaves in its output array.

  The kernel walks the rows in ten blocks of 10000. At block `t` it loads block `t` of the aggregated features
  and of the broadcast in-degree normalisation, the whole weight matrix and the whole bias, and stores
  `(a ∘ n) · w + b` as block `t` of the output. Row `p` of block `t` is row `10000 t + p` of the arrays, and the
  weights and bias are the same at every block, so each stored block is block `t` of the whole-array function
  `GcnSpec.linear`; the ten blocks tile the rows, so the output array ends as that function.
-/
import proofs.«171272_j41291815584253_1_alg».proof.Proof.Gen.KernelIdeal.Frame
import proofs.«171272_j41291815584253_1_alg».proof.Proof.LinearPayload
import proofs.«171272_j41291815584253_1_alg».proof.Proof.LinearSpec
import Idealize.ShloMosaic.Lib.Pipeline.Value

set_option maxRecDepth 16384

noncomputable section

namespace Cert.KernelIdeal.LinearRegion

open Cert.KernelIdeal Cert.KernelIdeal.Gen Idealize.ShloMosaic Idealize.ShloMosaic.TcCoe Idealize.SL.Sem
open Idealize.ShloMosaic.ValueIdx Cert.GcnSpec
open Idealize.ShloMosaic.Pipeline (Dat Cfg Window)

variable (V : (c : Dev nD) → (b : Ref sig .tc) → Buf (Elt Ideal) ((c : Thread nD τ).loc b))

/-- The four arrays the region reads, as it found them, at their literal types. -/
abbrev aggArr (c : Dev nD) : Vec Ideal S100000x32 .f32 := V c main_v25
abbrev nrmArr (c : Dev nD) : Vec Ideal S100000x32 .f32 := V c main_v27
abbrev wgtArr (c : Dev nD) : Vec Ideal S32x32 .f32 := V c main_arg1
abbrev biasArr (c : Dev nD) : Vec Ideal S32 .f32 := V c main_arg2

theorem origin2 : (![0, 0] : Fin 2 → Nat) = fun _ => 0 := funext fun a => by fin_cases a <;> rfl
theorem origin1 : (![0] : Fin 1 → Nat) = fun _ => 0 := funext fun a => by fin_cases a <;> rfl

/-- The row windows sit at row block `t`, column block 0; the weights and the bias at their one block. -/
theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = t.val ∧ win1_4.index t (1 : Fin 2) = 0 :=
  (by decide +kernel : ∀ t : Fin grid1.N, _)

/-- What block `t` writes back is block `t` of `linear` of the four arrays as the region found them. -/
theorem flushed_eq (c : Dev nD) (t : Fin cfg1.N) :
    (dat1 V c).flushed 4 t = ((cfg1.win 4).blk t).view.read (Elt Ideal)
      (linear (V c main_v25) (V c main_v27) (V c main_arg1) (V c main_arg2)) := by
  show (cfg1.win 4).cut (grid1.coords t) ((dat1 V c).after 4 t) = _
  rw [after1_4]
  unfold out1_4
  rw [View.canon_unit_zero origin2]
  simp only [View.ld_unit_zero (S := S10000x32) origin2, View.ld_unit_zero (S := S32x32) origin2, View.ld_unit_zero (S := S32) origin1]
  obtain ⟨e0, e1, e2, e3, e4, e5, e6, e7, e8⟩ := block_index t
  funext j
  obtain ⟨p, q, rfl⟩ : ∃ (p : Fin 10000) (q : Fin 32), j = ix2 p q := ⟨j 0, j 1, eq_ix2 j⟩
  refine (Linear.pay_apply (iblk1 V c 0 t) (iblk1 V c 1 t) (iblk1 V c 2 t) (iblk1 V c 3 t) p q).trans ?_
  have h0 : ∀ k : Fin 32, ((cfg1.win 0).blk t).view.emb (ix2 p k) = rowAt (((cfg1.win 4).blk t).view.emb (ix2 p q)) k := fun k => by
    funext a; apply Fin.ext
    match a with
    | ⟨0, _⟩ => show win1_0.index t (0 : Fin 2) * 10000 + 1 * p.val = win1_4.index t (0 : Fin 2) * 10000 + 1 * p.val; omega
    | ⟨1, _⟩ => show win1_0.index t (1 : Fin 2) * 32 + 1 * k.val = k.val; omega
  have h1 : ∀ k : Fin 32, ((cfg1.win 1).blk t).view.emb (ix2 p k) = rowAt (((cfg1.win 4).blk t).view.emb (ix2 p q)) k := fun k => by
    funext a; apply Fin.ext
    match a with
    | ⟨0, _⟩ => show win1_1.index t (0 : Fin 2) * 10000 + 1 * p.val = win1_4.index t (0 : Fin 2) * 10000 + 1 * p.val; omega
    | ⟨1, _⟩ => show win1_1.index t (1 : Fin 2) * 32 + 1 * k.val = k.val; omega
  have h2 : ∀ k : Fin 32, ((cfg1.win 2).blk t).view.emb (ix2 k q) = colAt (((cfg1.win 4).blk t).view.emb (ix2 p q)) k := fun k => by
    funext a; apply Fin.ext
    match a with
    | ⟨0, _⟩ => show win1_2.index t (0 : Fin 2) * 32 + 1 * k.val = k.val; omega
    | ⟨1, _⟩ => show win1_2.index t (1 : Fin 2) * 32 + 1 * q.val = win1_4.index t (1 : Fin 2) * 32 + 1 * q.val; omega
  have h3 : ((cfg1.win 3).blk t).view.emb (ix1 q) = biasAt (((cfg1.win 4).blk t).view.emb (ix2 p q)) := by
    funext a; apply Fin.ext
    match a with
    | ⟨0, _⟩ => show win1_3.index t (0 : Fin 1) * 32 + 1 * q.val = win1_4.index t (1 : Fin 2) * 32 + 1 * q.val; omega
  show (∑ k : Fin 32, (aggArr V c (((cfg1.win 0).blk t).view.emb (ix2 p k)) * nrmArr V c (((cfg1.win 1).blk t).view.emb (ix2 p k)))
        * wgtArr V c (((cfg1.win 2).blk t).view.emb (ix2 k q))) + biasArr V c (((cfg1.win 3).blk t).view.emb (ix1 q))
    = linear (aggArr V c) (nrmArr V c) (wgtArr V c) (biasArr V c) (((cfg1.win 4).blk t).view.emb (ix2 p q))
  rw [linear_apply, h3]
  simp only [h0, h1, h2]

/-- An index of the output array is in block `t` exactly when each coordinate is in the block's range. -/
theorem mem_blk (t : Fin cfg1.N) (i : S100000x32.Idx) :
    i ∈ ((cfg1.win 4).blk t).view.set ↔ ∀ a : Fin 2, win1_4.index t a * S10000x32.size a ≤ (i a).val ∧ (i a).val < win1_4.index t a * S10000x32.size a + S10000x32.size a := by
  show i ∈ ((View.whole main_v28).slice (win1_4.rect t)).set ↔ _
  rw [View.set_slice_whole, Rect.mem_set_unit]
  exact Iff.rfl

/-- Row `r` of the output lies in block `r / 10000`. -/
theorem cover (i : S100000x32.Idx) : ∃ t : Fin cfg1.N, (cfg1.win 4).flush t = true ∧ i ∈ ((cfg1.win 4).blk t).view.set := by
  have hi0 : (i 0).val < 100000 := (i 0).isLt
  have hi1 : (i 1).val < 32 := (i 1).isLt
  let t : Fin cfg1.N := ⟨(i 0).val / 10000, by show _ < grid1.N; rw [N_1]; omega⟩
  obtain ⟨e0, e1, e2, e3, e4, e5, e6, e7, e8⟩ := block_index t
  have ht : t.val = (i 0).val / 10000 := rfl
  refine ⟨t, flush1_4 t, ?_⟩
  rw [mem_blk]
  intro a
  match a with
  | ⟨0, _⟩ => show win1_4.index t (0 : Fin 2) * 10000 ≤ (i 0).val ∧ (i 0).val < win1_4.index t (0 : Fin 2) * 10000 + 10000; omega
  | ⟨1, _⟩ => show win1_4.index t (1 : Fin 2) * 32 ≤ (i 1).val ∧ (i 1).val < win1_4.index t (1 : Fin 2) * 32 + 32; omega

/-- The output array after the ten blocks. -/
theorem final (c : Dev nD) :
    (dat1 V c).arrAt 4 cfg1.N = linear (V c main_v25) (V c main_v27) (V c main_arg1) (V c main_arg2) :=
  (dat1 V c).arrAt_eq_of_cover 4 _ (fun t _ => flushed_eq V c t) cover

end Cert.KernelIdeal.LinearRegion

end
-- ==== Proof.RefLinear.lean ====
/-
  The reference's last stage is the same whole-array function.

  The reference multiplies the aggregated features by the broadcast in-degree normalisation, contracts the
  product's columns with the weight matrix's rows in one `dot_general`, and adds the bias broadcast down the
  rows. Read at an entry that is `(∑ k, (A r k · N r k) · W k c) + b c`: `GcnSpec.linear` of the aggregated
  features, the normalisation, the weights and the bias.
-/
import proofs.«171272_j41291815584253_1_alg».proof.Proof.Gen.ReferenceIdeal.Read
import proofs.«171272_j41291815584253_1_alg».proof.Proof.LinearSpec

noncomputable section

namespace Cert.ReferenceIdeal.RefLinear

open Cert.ReferenceIdeal Cert.ReferenceIdeal.Gen Cert.ReferenceIdeal.Read Idealize.ShloMosaic Cert.GcnSpec

/-- The bias is read, through its two broadcasts, at the entry's column. -/
theorem bias_index (i : S100000x32.Idx) : idx_main_v30 (idx_main_v31 i) = biasAt i :=
  funext fun a => match a with | ⟨0, _⟩ => rfl

/-- The whole-array product with the weights, at an entry: the sum over the 32 contracted coordinates of the
    left operand along the entry's row times the weights down the entry's column. -/
theorem dot_apply (y : FVec Ideal S100000x32 .f32) (W : FVec Ideal S32x32 .f32) (i : S100000x32.Idx) :
    Host.dotGeneral (F := Ideal) dot_S100000x32_S32x32_S100000x32_1_0_0_1_n_n none y W i = ∑ k : Fin 32, y (rowAt i k) * W (colAt i k) := by
  simp only [Host.dotGeneral]
  rw [Ideal.dotGeneral_apply, ← Equiv.sum_comp (ValueIdx.contrEquiv1 dot_S100000x32_S32x32_S100000x32_1_0_0_1_n_n 32 rfl rfl).symm]
  refine Finset.sum_congr rfl fun k _ => ?_
  have hk := ValueIdx.contrEquiv1_symm_val dot_S100000x32_S32x32_S100000x32_1_0_0_1_n_n 32 rfl rfl k
  have el : dot_S100000x32_S32x32_S100000x32_1_0_0_1_n_n.lhsIdx i ((ValueIdx.contrEquiv1 dot_S100000x32_S32x32_S100000x32_1_0_0_1_n_n 32 rfl rfl).symm k) = rowAt i k := funext fun a => Fin.ext (by
    match a with
    | ⟨0, _⟩ => exact lhs_main_v29_0 _ _
    | ⟨1, _⟩ => exact (lhs_main_v29_1 _ _).trans hk)
  have er : dot_S100000x32_S32x32_S100000x32_1_0_0_1_n_n.rhsIdx i ((ValueIdx.contrEquiv1 dot_S100000x32_S32x32_S100000x32_1_0_0_1_n_n 32 rfl rfl).symm k) = colAt i k := funext fun a => Fin.ext (by
    match a with
    | ⟨0, _⟩ => exact (rhs_main_v29_0 _ _).trans hk
    | ⟨1, _⟩ => exact rhs_main_v29_1 _ _)
  rw [el, er]

/-- For ANY aggregated features and normalisation: product, contraction with the weights, broadcast bias. -/
theorem stage_eq (A N : FVec Ideal S100000x32 .f32) (W : FVec Ideal S32x32 .f32) (b : FVec Ideal S32 .f32) :
    addf (Host.dotGeneral (F := Ideal) dot_S100000x32_S32x32_S100000x32_1_0_0_1_n_n none (mulf A N) W) (val_main_v31 (F := Ideal) b)
      = linear A N W b := by
  funext i
  rw [linear_apply]
  show Host.dotGeneral (F := Ideal) dot_S100000x32_S32x32_S100000x32_1_0_0_1_n_n none (mulf A N) W i + val_main_v31 (F := Ideal) b i = _
  rw [dot_apply, val_main_v31_apply, val_main_v30_apply, bias_index]
  rfl

/-- The reference's result is `linear` of its own aggregated features and normalisation, the weights and the bias. -/
theorem result_eq (x0 : (⟨S100000x32, .f32⟩ : BufTy).Contents (Elt Ideal)) (x1 : (⟨S32x32, .f32⟩ : BufTy).Contents (Elt Ideal))
    (x2 : (⟨S32, .f32⟩ : BufTy).Contents (Elt Ideal)) (x3 x4 : (⟨S6400000, .i32⟩ : BufTy).Contents (Elt Ideal)) :
    val_main_v32 (F := Ideal) x0 x1 x2 x3 x4
      = linear (val_main_v25 (F := Ideal) x0 x3 x4) (val_main_v27 (F := Ideal) x4) x1 x2 := by
  unfold val_main_v32 val_main_v29 val_main_v28
  generalize val_main_v25 (F := Ideal) x0 x3 x4 = A
  generalize val_main_v27 (F := Ideal) x4 = N
  exact stage_eq A N x1 x2

end Cert.ReferenceIdeal.RefLinear

end
-- ==== Proof.HostChain.lean ====
/-
  The kernel program's result buffer as a function of the launch arrays, and why it is the reference's.

  Between its two kernels the program runs the same host operations as the reference: the two degree counts
  (scatter-adds of ones over the edge sources and over the edge targets), their clamp at 1 and reciprocal
  square roots, the two broadcasts to 100000×32, the wrap of negative source indices, the row gather at
  the sources and the scatter-add at the targets. The first kernel's output is the entrywise product of the
  features and the out-degree normalisation (what the reference computes with one multiply), so the
  aggregated features and the in-degree normalisation that reach the second kernel are the reference's own
  stages of the same launch arrays; the second kernel's output is `GcnSpec.linear` of them, the weights and
  the bias, which is the reference's result.
-/
import proofs.«171272_j41291815584253_1_alg».proof.Proof.Gen.KernelIdeal.Frame
import proofs.«171272_j41291815584253_1_alg».proof.Proof.Gen.ReferenceIdeal.Read
import proofs.«171272_j41291815584253_1_alg».proof.Proof.RowScale
import proofs.«171272_j41291815584253_1_alg».proof.Proof.LinearRegion
import proofs.«171272_j41291815584253_1_alg».proof.Proof.RefLinear
import Idealize.ShloMosaic.Lib.StableHlo.Run

set_option maxRecDepth 16384

noncomputable section

namespace Cert.KernelIdeal.HostChain

open Cert.KernelIdeal Cert.KernelIdeal.Gen Idealize.ShloMosaic Idealize.ShloMosaic.TcCoe Idealize.SL.Sem
open Idealize.ShloMosaic.StableHlo Cert.ReferenceIdeal.Read Cert.GcnSpec

variable (m : (ℓ : Loc nD τ sig) → Buf (Elt Ideal) ℓ) (ρ : Dev nD → PrngReg)

/-! ## Before the first kernel -/

/-- The broadcast out-degree normalisation the first kernel reads is the reference's stage of the edge sources. -/
theorem out_norm (c : Dev nD) :
    W1 m ρ c (Proc.devRef .tc main_v14) = val_main_v14 (F := Ideal) (m ((c : Thread nD τ).loc main_arg3)) := by
  show StableHlo.after hostOps0 (W0 m ρ c) (Proc.devRef .tc main_v14) = _
  after_results
  rfl

/-- The in-degree normalisation is the reference's stage of the edge targets. -/
theorem in_norm (c : Dev nD) :
    W1 m ρ c (Proc.devRef .tc main_v12) = val_main_v12 (F := Ideal) (m ((c : Thread nD τ).loc main_arg4)) := by
  show StableHlo.after hostOps0 (W0 m ρ c) (Proc.devRef .tc main_v12) = _
  after_results
  rfl

/-- No host operation before the first kernel writes an argument. -/
theorem W1_arg0 (c : Dev nD) : W1 m ρ c (Proc.devRef .tc main_arg0) = m ((c : Thread nD τ).loc main_arg0) := by
  show StableHlo.after hostOps0 (W0 m ρ c) (Proc.devRef .tc main_arg0) = _
  after_results
theorem W1_arg1 (c : Dev nD) : W1 m ρ c (Proc.devRef .tc main_arg1) = m ((c : Thread nD τ).loc main_arg1) := by
  show StableHlo.after hostOps0 (W0 m ρ c) (Proc.devRef .tc main_arg1) = _
  after_results
theorem W1_arg2 (c : Dev nD) : W1 m ρ c (Proc.devRef .tc main_arg2) = m ((c : Thread nD τ).loc main_arg2) := by
  show StableHlo.after hostOps0 (W0 m ρ c) (Proc.devRef .tc main_arg2) = _
  after_results
theorem W1_arg3 (c : Dev nD) : W1 m ρ c (Proc.devRef .tc main_arg3) = m ((c : Thread nD τ).loc main_arg3) := by
  show StableHlo.after hostOps0 (W0 m ρ c) (Proc.devRef .tc main_arg3) = _
  after_results
theorem W1_arg4 (c : Dev nD) : W1 m ρ c (Proc.devRef .tc main_arg4) = m ((c : Thread nD τ).loc main_arg4) := by
  show StableHlo.after hostOps0 (W0 m ρ c) (Proc.devRef .tc main_arg4) = _
  after_results

/-! ## After the first kernel -/

/-- The first kernel's output is the reference's scaled features. -/
theorem scaled (c : Dev nD) :
    W2 m ρ c (Proc.devRef .tc main_v15)
      = val_main_v15 (F := Ideal) (m ((c : Thread nD τ).loc main_arg0)) (m ((c : Thread nD τ).loc main_arg3)) := by
  refine (W2_arr m ρ c 2).trans ?_
  rw [RowScale.final]
  show mulf (F := Ideal) (s := S100000x32) (φ := .f32) (W1 m ρ c (Proc.devRef .tc main_arg0)) (W1 m ρ c (Proc.devRef .tc main_v14)) = _
  rw [W1_arg0, out_norm]
  rfl

/-- The first kernel writes only its output: the other buffers pass through. -/
theorem W2_arg1 (c : Dev nD) : W2 m ρ c (Proc.devRef .tc main_arg1) = m ((c : Thread nD τ).loc main_arg1) :=
  (W2_of_ne m ρ c main_arg1 (by decide)).trans (W1_arg1 m ρ c)
theorem W2_arg2 (c : Dev nD) : W2 m ρ c (Proc.devRef .tc main_arg2) = m ((c : Thread nD τ).loc main_arg2) :=
  (W2_of_ne m ρ c main_arg2 (by decide)).trans (W1_arg2 m ρ c)
theorem W2_arg3 (c : Dev nD) : W2 m ρ c (Proc.devRef .tc main_arg3) = m ((c : Thread nD τ).loc main_arg3) :=
  (W2_of_ne m ρ c main_arg3 (by decide)).trans (W1_arg3 m ρ c)
theorem W2_arg4 (c : Dev nD) : W2 m ρ c (Proc.devRef .tc main_arg4) = m ((c : Thread nD τ).loc main_arg4) :=
  (W2_of_ne m ρ c main_arg4 (by decide)).trans (W1_arg4 m ρ c)
theorem W2_in_norm (c : Dev nD) :
    W2 m ρ c (Proc.devRef .tc main_v12) = val_main_v12 (F := Ideal) (m ((c : Thread nD τ).loc main_arg4)) :=
  (W2_of_ne m ρ c main_v12 (by decide)).trans (in_norm m ρ c)

/-! ## Before the second kernel -/

/-- The aggregated features the second kernel reads are the reference's. -/
theorem aggregated (c : Dev nD) :
    W3 m ρ c (Proc.devRef .tc main_v25)
      = val_main_v25 (F := Ideal) (m ((c : Thread nD τ).loc main_arg0)) (m ((c : Thread nD τ).loc main_arg3)) (m ((c : Thread nD τ).loc main_arg4)) := by
  show StableHlo.after hostOps1 (W2 m ρ c) (Proc.devRef .tc main_v25) = _
  after_results
  rw [scaled, W2_arg3, W2_arg4]
  rfl

/-- The broadcast in-degree normalisation the second kernel reads is the reference's. -/
theorem in_norm_bcast (c : Dev nD) :
    W3 m ρ c (Proc.devRef .tc main_v27) = val_main_v27 (F := Ideal) (m ((c : Thread nD τ).loc main_arg4)) := by
  show StableHlo.after hostOps1 (W2 m ρ c) (Proc.devRef .tc main_v27) = _
  after_results
  rw [W2_in_norm]
  rfl

theorem W3_arg1 (c : Dev nD) : W3 m ρ c (Proc.devRef .tc main_arg1) = m ((c : Thread nD τ).loc main_arg1) := by
  show StableHlo.after hostOps1 (W2 m ρ c) (Proc.devRef .tc main_arg1) = _
  after_results
  exact W2_arg1 m ρ c
theorem W3_arg2 (c : Dev nD) : W3 m ρ c (Proc.devRef .tc main_arg2) = m ((c : Thread nD τ).loc main_arg2) := by
  show StableHlo.after hostOps1 (W2 m ρ c) (Proc.devRef .tc main_arg2) = _
  after_results
  exact W2_arg2 m ρ c

/-! ## After the second kernel -/

/-- The program's result buffer ends at the reference's result of the launch arrays. -/
theorem result (c : Dev nD) :
    W4 m ρ c (Proc.devRef .tc main_v28)
      = val_main_v32 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  refine (W4_arr m ρ c 4).trans ?_
  rw [LinearRegion.final, Cert.ReferenceIdeal.RefLinear.result_eq]
  show linear (W3 m ρ c (Proc.devRef .tc main_v25)) (W3 m ρ c (Proc.devRef .tc main_v27))
      (W3 m ρ c (Proc.devRef .tc main_arg1)) (W3 m ρ c (Proc.devRef .tc main_arg2)) = _
  rw [aggregated, in_norm_bcast, W3_arg1, W3_arg2]

end Cert.KernelIdeal.HostChain

end
-- ==== Proof.lean ====
/-
  The certificate of a degree-normalised graph convolution layer against its jnp reference.

  Both programs compute, from node features `x` (100000×32), weights `W` (32×32), a bias `b` (32) and edge lists
  `src`, `dst` (6400000 each):

      out = (D_in^(-1/2) · agg) · W + b,   agg[v] = ∑ over edges (u, v) of (D_out^(-1/2) · x)[u],

  with the degrees counted by scatter-adds of ones and clamped at 1. The kernel program does the two
  row scalings and the product with the weights in two kernels (ten row blocks of 10000 each; the
  second narrows its operands to bf16, the identity on extended reals) and everything else on the host, with
  the very host operations of the reference. So over the extended reals the two results are one function of
  the launch arrays, with no appeal to finiteness: the first kernel's output array is the reference's scaled
  features, the host stretch between the kernels is shared, and the second kernel's output array is the
  reference's product-plus-bias read entry by entry as the same sum of 32 terms.

  The three frames are the programs' runs with the results dropped; the idealization ledger is empty.
-/
import proofs.«171272_j41291815584253_1_alg».proof.Defs
import proofs.«171272_j41291815584253_1_alg».proof.Proof.Gen.Kernel
import proofs.«171272_j41291815584253_1_alg».proof.Proof.Gen.Kernel.Skeleton
import proofs.«171272_j41291815584253_1_alg».proof.Proof.Gen.Kernel.Launch
import proofs.«171272_j41291815584253_1_alg».proof.Proof.Gen.Kernel.Points
import proofs.«171272_j41291815584253_1_alg».proof.Proof.Gen.Kernel.Frame
import proofs.«171272_j41291815584253_1_alg».proof.Proof.Gen.KernelIdeal
import proofs.«171272_j41291815584253_1_alg».proof.Proof.Gen.KernelIdeal.Skeleton
import proofs.«171272_j41291815584253_1_alg».proof.Proof.Gen.KernelIdeal.Launch
import proofs.«171272_j41291815584253_1_alg».proof.Proof.Gen.KernelIdeal.Points
import proofs.«171272_j41291815584253_1_alg».proof.Proof.Gen.KernelIdeal.Frame
import proofs.«171272_j41291815584253_1_alg».proof.Proof.Gen.ReferenceIdeal
import proofs.«171272_j41291815584253_1_alg».proof.Proof.Gen.Pre_finite_inputs
import proofs.«171272_j41291815584253_1_alg».proof.Proof.Gen.ReferenceIdeal.Run
import proofs.«171272_j41291815584253_1_alg».proof.Proof.Gen.ReferenceIdeal.Read
import proofs.«171272_j41291815584253_1_alg».proof.Proof.KernelRun
import proofs.«171272_j41291815584253_1_alg».proof.Proof.HostChain
import Idealize.ShloMosaic.Adequacy
import Idealize.ShloMosaic.Init

noncomputable section

namespace Cert.Proof

open Idealize.ShloMosaic Idealize.ShloMosaic.TcCoe Idealize.SL.Sem

/-! ## The frames -/

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-! ## The idealization rewrote nothing -/

theorem preserves : Cert.preserves_Kernel_KernelIdeal := trivial

/-! ## Equal results over the extended reals -/

/-- Both programs end with their result buffer at the reference's last stage `val_main_v32` of the launch
    arrays: the kernel program by its run to the last segment boundary and the chain of stages read there,
    the reference by its run, the arguments' agreement rewritten. -/
theorem algebraic : Cert.algebraic_KernelIdeal_ReferenceIdeal := by
  intro m ρ m' ρ' _ hagree
  refine ⟨fun c => Cert.ReferenceIdeal.Read.val_main_v32 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · refine (θ_run Cert.KernelIdeal.defs _ _).mono (fun r h c => ⟨?_, ?_, ?_, ?_, ?_, ?_⟩)
      (Cert.KernelIdeal.RunAll.run_all (F := Ideal) m ρ)
    · exact (h c _ (Cert.KernelIdeal.Gen.mem_uc Cert.KernelIdeal.main_v28 (by decide))).trans (Cert.KernelIdeal.HostChain.result m ρ c)
    · exact (h c _ (Cert.KernelIdeal.Gen.mem_uc Cert.KernelIdeal.main_arg0 (by decide))).trans (Cert.KernelIdeal.Gen.W4_main_arg0 m ρ c)
    · exact (h c _ (Cert.KernelIdeal.Gen.mem_uc Cert.KernelIdeal.main_arg1 (by decide))).trans (Cert.KernelIdeal.Gen.W4_main_arg1 m ρ c)
    · exact (h c _ (Cert.KernelIdeal.Gen.mem_uc Cert.KernelIdeal.main_arg2 (by decide))).trans (Cert.KernelIdeal.Gen.W4_main_arg2 m ρ c)
    · exact (h c _ (Cert.KernelIdeal.Gen.mem_uc Cert.KernelIdeal.main_arg3 (by decide))).trans (Cert.KernelIdeal.Gen.W4_main_arg3 m ρ c)
    · exact (h c _ (Cert.KernelIdeal.Gen.mem_uc Cert.KernelIdeal.main_arg4 (by decide))).trans (Cert.KernelIdeal.Gen.W4_main_arg4 m ρ c)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v32_eq, (hagree c).1, (hagree c).2.1, (hagree c).2.2.1, (hagree c).2.2.2.1, (hagree c).2.2.2.2]

/-! ## The claim -/

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
